-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x8192 : Shape := ⟨3, ![4, 128, 8192]⟩
abbrev S12288x128x16 : Shape := ⟨3, ![12288, 128, 16]⟩
abbrev S12288x128x1 : Shape := ⟨3, ![12288, 128, 1]⟩
abbrev S_ : Shape := ⟨0, ![]⟩

class Facts : Prop where
  bcast_S_S4x128x8192 : S_.BroadcastsInDim S4x128x8192 (![] : Fin 0 → Fin S4x128x8192.rank)
  reducesTo_S4x128x8192_S_d0_1_2 : S4x128x8192.ReducesTo [0, 1, 2] S_
  h_S_ : 0 < S_.numel
  bcast_S_S12288x128x1 : S_.BroadcastsInDim S12288x128x1 (![] : Fin 0 → Fin S12288x128x1.rank)
  reducesTo_S12288x128x1_S_d0_1_2 : S12288x128x1.ReducesTo [0, 1, 2] S_

variable [Facts]

def fn {F : FTy → Type} [FloatOps F] (main_arg0 : FVec F S4x128x8192 .f32) (main_arg1 : IVec S12288x128x16 32) (main_arg2 : FVec F S12288x128x1 .f32) (main_arg3 : FVec F S12288x128x1 .f32) : IVec S_ 1 :=
  let main_v0 : FVec F S4x128x8192 .f32 := Host.absf main_arg0
  let main_cst : FVec F S_ .f32 := constant S_ .f32 0x7F800000#32
  let main_v1 : FVec F S4x128x8192 .f32 := broadcastInDim S4x128x8192 ![] bcast_S_S4x128x8192 main_cst
  let main_v2 : IVec S4x128x8192 1 := cmpf .olt main_v0 main_v1
  let main_c : IVec S_ 1 := constantI S_ 1 1#1
  let main_v3 : IVec S_ 1 := (fun x v => Host.reduce IntOp.andi x v reducesTo_S4x128x8192_S_d0_1_2 h_S_) main_v2 main_c
  let main_v4 : FVec F S12288x128x1 .f32 := Host.absf main_arg2
  let main_cst_0 : FVec F S_ .f32 := constant S_ .f32 0x7F800000#32
  let main_v5 : FVec F S12288x128x1 .f32 := broadcastInDim S12288x128x1 ![] bcast_S_S12288x128x1 main_cst_0
  let main_v6 : IVec S12288x128x1 1 := cmpf .olt main_v4 main_v5
  let main_c_1 : IVec S_ 1 := constantI S_ 1 1#1
  let main_v7 : IVec S_ 1 := (fun x v => Host.reduce IntOp.andi x v reducesTo_S12288x128x1_S_d0_1_2 h_S_) main_v6 main_c_1
  let main_v8 : IVec S_ 1 := andi main_v3 main_v7
  let main_v9 : FVec F S12288x128x1 .f32 := Host.absf main_arg3
  let main_cst_2 : FVec F S_ .f32 := constant S_ .f32 0x7F800000#32
  let main_v10 : FVec F S12288x128x1 .f32 := broadcastInDim S12288x128x1 ![] bcast_S_S12288x128x1 main_cst_2
  let main_v11 : IVec S12288x128x1 1 := cmpf .olt main_v9 main_v10
  let main_c_3 : IVec S_ 1 := constantI S_ 1 1#1
  let main_v12 : IVec S_ 1 := (fun x v => Host.reduce IntOp.andi x v reducesTo_S12288x128x1_S_d0_1_2 h_S_) main_v11 main_c_3
  let main_v13 : IVec S_ 1 := andi main_v8 main_v12
  main_v13
-- ==== Kernel.lean ====
abbrev S4x128x8192 : Shape := ⟨3, ![4, 128, 8192]⟩
abbrev S12288x128x16 : Shape := ⟨3, ![12288, 128, 16]⟩
abbrev S12288x128x1 : Shape := ⟨3, ![12288, 128, 1]⟩
abbrev S512x128x4x4x4 : Shape := ⟨5, ![512, 128, 4, 4, 4]⟩
abbrev S512x8192 : Shape := ⟨2, ![512, 8192]⟩
abbrev S12288x128 : Shape := ⟨2, ![12288, 128]⟩
abbrev S512x12288 : Shape := ⟨2, ![512, 12288]⟩
abbrev S128x128x16 : Shape := ⟨3, ![128, 128, 16]⟩
abbrev S128x128 : Shape := ⟨2, ![128, 128]⟩
abbrev S512x128 : Shape := ⟨2, ![512, 128]⟩
abbrev S128x128x1 : Shape := ⟨3, ![128, 128, 1]⟩
abbrev S128x128x64 : Shape := ⟨3, ![128, 128, 64]⟩
abbrev S128x8192 : Shape := ⟨2, ![128, 8192]⟩
abbrev S4x128x12288 : Shape := ⟨3, ![4, 128, 12288]⟩

abbrev nBuf : Space → Nat
  | .hbm => 12
  | .vmem => 9
  | .smem => 0
  | _ => 0

abbrev bufTy : (tb : Table) → Fin (tcTables nBuf tb) → BufTy
  | .hbm, ⟨0, _⟩ => ⟨S4x128x8192, .f32⟩
  | .hbm, ⟨1, _⟩ => ⟨S12288x128x16, .i32⟩
  | .hbm, ⟨2, _⟩ => ⟨S12288x128x1, .f32⟩
  | .hbm, ⟨3, _⟩ => ⟨S12288x128x1, .f32⟩
  | .hbm, ⟨4, _⟩ => ⟨S512x128x4x4x4, .f32⟩
  | .hbm, ⟨5, _⟩ => ⟨S512x128x4x4x4, .f32⟩
  | .hbm, ⟨6, _⟩ => ⟨S512x8192, .f32⟩
  | .hbm, ⟨7, _⟩ => ⟨S512x8192, .bf16⟩
  | .hbm, ⟨8, _⟩ => ⟨S12288x128, .f32⟩
  | .hbm, ⟨9, _⟩ => ⟨S12288x128, .f32⟩
  | .hbm, ⟨10, _⟩ => ⟨S512x12288, .f32⟩
  | .hbm, ⟨11, _⟩ => ⟨S4x128x12288, .f32⟩
  | .local _ .vmem, ⟨0, _⟩ => ⟨S512x8192, .bf16⟩
  | .local _ .vmem, ⟨1, _⟩ => ⟨S128x128x16, .i32⟩
  | .local _ .vmem, ⟨2, _⟩ => ⟨S128x128x16, .i32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S512x128, .f32⟩
  | .local _ .vmem, ⟨8, _⟩ => ⟨S512x128, .f32⟩
  | _, _ => ⟨S4x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x128x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x128x8192_S512x128x4x4x4 : S4x128x8192.ShapeCasts S512x128x4x4x4
  transposes_S512x128x4x4x4_S512x128x4x4x4_0_1_3_2_4 : S512x128x4x4x4.Transposes [0, 1, 3, 2, 4] S512x128x4x4x4
  shapeCasts_S512x128x4x4x4_S512x8192 : S512x128x4x4x4.ShapeCasts S512x8192
  bitsLt_bf16_f32 : FTy.bits .bf16 < FTy.bits .f32
  shapeCasts_S12288x128x1_S12288x128 : S12288x128x1.ShapeCasts S12288x128
  inb_S128x128x16_S128x128x16_0_0_0 : ∀ a, (![0, 0, 0] : Fin 3 → Nat) a + S128x128x16.size a ≤ S128x128x16.size a
  h_S128x128x16 : 0 < S128x128x16.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x128x1 : S128x128.ShapeCasts S128x128x1
  concatenates_S128x128x16_S128x128x16_S128x128x16_S128x128x16_S128x128x64_d2 : Shape.Concatenates [S128x128x16, S128x128x16, S128x128x16, S128x128x16] S128x128x64 2
  broadcasts_S128x128x1_S128x128x64 : S128x128x1.Broadcasts S128x128x64
  shapeCasts_S128x128x64_S128x8192 : S128x128x64.ShapeCasts S128x8192
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S512x128_S512x128_0_0 : ∀ a, (![0, 0] : Fin 2 → Nat) a + S512x128.size a ≤ S512x128.size a
  h_S512x128 : 0 < S512x128.numel
  shapeCasts_S512x12288_S4x128x12288 : S512x12288.ShapeCasts S4x128x12288
  dot_S512x8192_S128x8192_S512x128_1_1_0_0_n_n_wf : DotDims.WF S512x8192 S128x8192 S512x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S512x8192.size a
  hwx0_0 : ∀ i : grid0.Coords, EltTy.bits .bf16 = 32 ∨ (Rect.block (s := S512x8192) S512x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x16.size a ≤ S12288x128x16.size a
  hwx0_1 : ∀ i : grid0.Coords, EltTy.bits .i32 = 32 ∨ (Rect.block (s := S12288x128x16) S128x128x16.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S12288x128.size a
  hwx0_2 : ∀ i : grid0.Coords, EltTy.bits .f32 = 32 ∨ (Rect.block (s := S12288x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S12288x128.size a
  hwx0_3 : ∀ i : grid0.Coords, EltTy.bits .f32 = 32 ∨ (Rect.block (s := S12288x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x12288.size a
  hwx0_4 : ∀ i : grid0.Coords, EltTy.bits .f32 = 32 ∨ (Rect.block (s := S512x12288) S512x128.size (cc0_transform_4 i) (hinb0_4 i)).WholeWords (EltTy.packing .f32)

variable [Facts₀]

def dot_S512x8192_S128x8192_S512x128_1_1_0_0_n_n : DotDims S512x8192 S128x8192 S512x128 where
  lhsContracting := [1]
  rhsContracting := [1]
  lhsNonContracting := [0]
  rhsNonContracting := [0]
  lhsBatch := []
  rhsBatch := []
  wf := dot_S512x8192_S128x8192_S512x128_1_1_0_0_n_n_wf

abbrev win0_0 : Pipeline.Window sig grid0 :=
  Pipeline.Window.ofSpec (Memref.whole main_v3) S512x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x128x8192 : Shape := ⟨3, ![4, 128, 8192]⟩
abbrev S12288x128x16 : Shape := ⟨3, ![12288, 128, 16]⟩
abbrev S12288x128x1 : Shape := ⟨3, ![12288, 128, 1]⟩
abbrev S12288x128x4x4 : Shape := ⟨4, ![12288, 128, 4, 4]⟩
abbrev S_ : Shape := ⟨0, ![]⟩
abbrev S12288x128x4x1x4 : Shape := ⟨5, ![12288, 128, 4, 1, 4]⟩
abbrev S12288x128x4x4x4 : Shape := ⟨5, ![12288, 128, 4, 4, 4]⟩
abbrev S12288x128x64 : Shape := ⟨3, ![12288, 128, 64]⟩
abbrev S12288x8192 : Shape := ⟨2, ![12288, 8192]⟩
abbrev S4x128x12288 : Shape := ⟨3, ![4, 128, 12288]⟩

abbrev nBuf : Space → Nat
  | .hbm => 42
  | .vmem => 0
  | .smem => 0
  | _ => 0

abbrev bufTy : (tb : Table) → Fin (tcTables nBuf tb) → BufTy
  | .hbm, ⟨0, _⟩ => ⟨S4x128x8192, .f32⟩
  | .hbm, ⟨1, _⟩ => ⟨S12288x128x16, .i32⟩
  | .hbm, ⟨2, _⟩ => ⟨S12288x128x1, .f32⟩
  | .hbm, ⟨3, _⟩ => ⟨S12288x128x1, .f32⟩
  | .hbm, ⟨4, _⟩ => ⟨S12288x128x4x4, .i32⟩
  | .hbm, ⟨5, _⟩ => ⟨S_, .i32⟩
  | .hbm, ⟨6, _⟩ => ⟨S12288x128x4x4, .i32⟩
  | .hbm, ⟨7, _⟩ => ⟨S12288x128x4x4, .i32⟩
  | .hbm, ⟨8, _⟩ => ⟨S_, .i32⟩
  | .hbm, ⟨9, _⟩ => ⟨S12288x128x4x4, .i32⟩
  | .hbm, ⟨10, _⟩ => ⟨S12288x128x4x4, .i32⟩
  | .hbm, ⟨11, _⟩ => ⟨S_, .i32⟩
  | .hbm, ⟨12, _⟩ => ⟨S12288x128x4x4, .i32⟩
  | .hbm, ⟨13, _⟩ => ⟨S12288x128x4x4, .i32⟩
  | .hbm, ⟨14, _⟩ => ⟨S_, .i32⟩
  | .hbm, ⟨15, _⟩ => ⟨S12288x128x4x4, .i32⟩
  | .hbm, ⟨16, _⟩ => ⟨S12288x128x4x4, .i32⟩
  | .hbm, ⟨17, _⟩ => ⟨S_, .i32⟩
  | .hbm, ⟨18, _⟩ => ⟨S12288x128x4x4, .i32⟩
  | .hbm, ⟨19, _⟩ => ⟨S12288x128x4x4, .i32⟩
  | .hbm, ⟨20, _⟩ => ⟨S_, .i32⟩
  | .hbm, ⟨21, _⟩ => ⟨S12288x128x4x4, .i32⟩
  | .hbm, ⟨22, _⟩ => ⟨S12288x128x4x4, .i32⟩
  | .hbm, ⟨23, _⟩ => ⟨S_, .i32⟩
  | .hbm, ⟨24, _⟩ => ⟨S12288x128x4x4, .i32⟩
  | .hbm, ⟨25, _⟩ => ⟨S12288x128x4x4, .i32⟩
  | .hbm, ⟨26, _⟩ => ⟨S_, .i32⟩
  | .hbm, ⟨27, _⟩ => ⟨S12288x128x4x4, .i32⟩
  | .hbm, ⟨28, _⟩ => ⟨S12288x128x4x4, .i32⟩
  | .hbm, ⟨29, _⟩ => ⟨S12288x128x4x1x4, .i32⟩
  | .hbm, ⟨30, _⟩ => ⟨S12288x128x4x1x4, .i32⟩
  | .hbm, ⟨31, _⟩ => ⟨S12288x128x4x1x4, .i32⟩
  | .hbm, ⟨32, _⟩ => ⟨S12288x128x4x1x4, .i32⟩
  | .hbm, ⟨33, _⟩ => ⟨S12288x128x4x4x4, .i32⟩
  | .hbm, ⟨34, _⟩ => ⟨S12288x128x64, .i32⟩
  | .hbm, ⟨35, _⟩ => ⟨S12288x128x64, .f32⟩
  | .hbm, ⟨36, _⟩ => ⟨S12288x128x64, .f32⟩
  | .hbm, ⟨37, _⟩ => ⟨S12288x128x64, .f32⟩
  | .hbm, ⟨38, _⟩ => ⟨S12288x128x64, .f32⟩
  | .hbm, ⟨39, _⟩ => ⟨S12288x128x64, .f32⟩
  | .hbm, ⟨40, _⟩ => ⟨S12288x8192, .f32⟩
  | .hbm, ⟨41, _⟩ => ⟨S4x128x12288, .f32⟩
  | _, _ => ⟨S4x128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_v11 : Ref sig .tc := ⟨.hbm, 21, rfl⟩
abbrev main_v12 : Ref sig .tc := ⟨.hbm, 22, rfl⟩
abbrev main_c_5 : Ref sig .tc := ⟨.hbm, 23, rfl⟩
abbrev main_v13 : Ref sig .tc := ⟨.hbm, 24, rfl⟩
abbrev main_v14 : Ref sig .tc := ⟨.hbm, 25, rfl⟩
abbrev main_c_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  shapeCasts_S12288x128x16_S12288x128x4x4 : S12288x128x16.ShapeCasts S12288x128x4x4
  bcast_S_S12288x128x4x4 : S_.BroadcastsInDim S12288x128x4x4 (![] : Fin 0 → Fin S12288x128x4x4.rank)
  bcast_S12288x128x4x4_S12288x128x4x1x4_0_1_2_4 : S12288x128x4x4.BroadcastsInDim S12288x128x4x1x4 (![0, 1, 2, 4] : Fin 4 → Fin S12288x128x4x1x4.rank)
  concatenates_S12288x128x4x1x4_S12288x128x4x1x4_S12288x128x4x1x4_S12288x128x4x1x4_S12288x128x4x4x4_d3 : Shape.Concatenates [S12288x128x4x1x4, S12288x128x4x1x4, S12288x128x4x1x4, S12288x128x4x1x4] S12288x128x4x4x4 3
  shapeCasts_S12288x128x4x4x4_S12288x128x64 : S12288x128x4x4x4.ShapeCasts S12288x128x64
  bcast_S12288x128x1_S12288x128x64_0_1_2 : S12288x128x1.BroadcastsInDim S12288x128x64 (![0, 1, 2] : Fin 3 → Fin S12288x128x64.rank)
  shapeCasts_S12288x128x64_S12288x8192 : S12288x128x64.ShapeCasts S12288x8192
  dot_S4x128x8192_S12288x8192_S4x128x12288_2_1_01_0_n_n_wf : DotDims.WF S4x128x8192 S12288x8192 S4x128x12288 [2] [1] [0, 1] [0] [] []

variable [Facts₀]

def dot_S4x128x8192_S12288x8192_S4x128x12288_2_1_01_0_n_n : DotDims S4x128x8192 S12288x8192 S4x128x12288 where
  lhsContracting := [2]
  rhsContracting := [1]
  lhsNonContracting := [0, 1]
  rhsNonContracting := [0]
  lhsBatch := []
  rhsBatch := []
  wf := dot_S4x128x8192_S12288x8192_S4x128x12288_2_1_01_0_n_n_wf

class Facts : Prop extends Facts₀ where

variable [Facts]
-- ==== Proof.Dequant.lean ====
/-
  The mathematics of the group-quantized linear layer, with no program in sight.

  A packed word holds four 4-bit values ("nibbles"): nibble n of a word w is (w >>ₛ 4n) AND 15. A weight row has 128
  groups of 64 columns. Column k of a row lies in group k / 64, and inside its group at place k % 64 = 16·blk + 4·n + j:
  its value is nibble n of the group's word 4·blk + j, turned into a number, times the group's scale, plus the group's
  bias. The layer's output at (b, s, o) is the sum over the 8192 columns of x (b, s, k) · weight (o, k).

  One of the two programs lays a group's 64 values out in another order, 16·n + 4·blk + j, and permutes x's columns the
  same way. That order is the first one read through the map that exchanges the two middle base-4 digits of k % 64:
  an involution of the 8192 columns, so a sum over all columns does not see it.
-/
import Idealize.ShloMosaic.PureOps.Ideal
import Idealize.ShloMosaic.Lib.ValueIdx

noncomputable section

namespace Cert.GroupQuant

open Idealize.ShloMosaic Idealize.ShloMosaic.ValueIdx

/-- The four shift amounts, 4·n. -/
def amt : Fin 4 → BitVec 32 := ![0#32, 4#32, 8#32, 12#32]

/-- Nibble `n` of a word: the arithmetic shift right by 4·n, masked to four bits. -/
def nibble (n : Fin 4) (w : BitVec 32) : BitVec 32 := IntOp.andi (IntOp.shrsi .host w (amt n)) 15#32

/-- The group of a column. -/
def grp (k : Fin 8192) : Fin 128 := ⟨k.val / 64, by have := k.isLt; omega⟩

/-- Inside a group: exchange the two middle base-4 digits of a place, 16a + 4b + c ↦ 16b + 4a + c. -/
def swapPlace (r : Nat) : Nat := (r / 4 % 4) * 16 + (r / 16 % 4) * 4 + r % 4

/-- Checked place by place over the 64 places of a group: the exchange stays inside the group, undoes itself, and carries
    the one layout's digits to the other's. -/
theorem swapPlace_facts : ∀ r : Fin 64, swapPlace r.val < 64 ∧ swapPlace (swapPlace r.val) = r.val
    ∧ swapPlace r.val / 4 % 4 = r.val / 16 ∧ swapPlace r.val / 16 * 4 + swapPlace r.val % 4 = r.val % 16 := by
  decide

theorem swapPlace_lt (k : Nat) : swapPlace (k % 64) < 64 := (swapPlace_facts ⟨k % 64, Nat.mod_lt _ (by decide)⟩).1

/-- The exchange on a column 64g + r: the group stays, the place is exchanged. -/
def swap (k : Fin 8192) : Fin 8192 :=
  ⟨k.val / 64 * 64 + swapPlace (k.val % 64), by have := k.isLt; have := swapPlace_lt k.val; omega⟩

theorem swap_div (k : Fin 8192) : (swap k).val / 64 = k.val / 64 := by
  have := swapPlace_lt k.val
  simp only [swap]
  omega

theorem swap_mod (k : Fin 8192) : (swap k).val % 64 = swapPlace (k.val % 64) := by
  have := swapPlace_lt k.val
  simp only [swap]
  omega

theorem swap_swap (k : Fin 8192) : swap (swap k) = k := by
  apply Fin.ext
  show (swap k).val / 64 * 64 + swapPlace ((swap k).val % 64) = k.val
  have h : swapPlace (swapPlace (k.val % 64)) = k.val % 64 := (swapPlace_facts ⟨k.val % 64, Nat.mod_lt _ (by decide)⟩).2.1
  rw [swap_div, swap_mod, h]
  omega

theorem grp_swap (k : Fin 8192) : grp (swap k) = grp k := Fin.ext (swap_div k)

/-- The swapped column's middle digit is the column's leading digit inside its group. -/
theorem swap_digit (k : Fin 8192) : (swap k).val / 4 % 4 = k.val % 64 / 16 := by
  have h : swapPlace (k.val % 64) / 4 % 4 = k.val % 64 / 16 := (swapPlace_facts ⟨k.val % 64, Nat.mod_lt _ (by decide)⟩).2.2.1
  have hm := swap_mod k
  have hd : (swap k).val / 4 % 4 = (swap k).val % 64 / 4 % 4 := by omega
  rw [hd, hm]
  exact h

/-- The swapped column's word 4·blk + j is the column's place modulo 16. -/
theorem swap_word (k : Fin 8192) : (swap k).val % 64 / 16 * 4 + (swap k).val % 4 = k.val % 16 := by
  have h : swapPlace (k.val % 64) / 16 * 4 + swapPlace (k.val % 64) % 4 = k.val % 64 % 16 :=
    (swapPlace_facts ⟨k.val % 64, Nat.mod_lt _ (by decide)⟩).2.2.2
  have hm := swap_mod k
  have hd : (swap k).val % 4 = (swap k).val % 64 % 4 := by omega
  have he : k.val % 64 % 16 = k.val % 16 := by omega
  rw [hd, hm]
  exact h.trans he

/-- The exchange as a permutation of the columns. -/
def swapPerm : Equiv.Perm (Fin 8192) := Function.Involutive.toPerm swap swap_swap

/-- A sum over all columns may be taken through the exchange. -/
theorem sum_swap {M : Type} [AddCommMonoid M] (f : Fin 8192 → M) : ∑ k : Fin 8192, f (swap k) = ∑ k : Fin 8192, f k :=
  Equiv.sum_comp swapPerm f

/-- One dequantized value: nibble `n` of word `j` of group `g` of row `o`, as a number, times the group's scale plus its bias. -/
def entry (wp : (⟨3, ![12288, 128, 16]⟩ : Shape).Idx → BitVec 32) (sc bi : (⟨3, ![12288, 128, 1]⟩ : Shape).Idx → EReal)
    (o : Fin 12288) (g : Fin 128) (n : Fin 4) (j : Fin 16) : EReal :=
  (((nibble n (wp (ix3 o g j))).toInt : ℝ) : EReal) * sc (ix3 o g (0 : Fin 1)) + bi (ix3 o g (0 : Fin 1))

/-- The weight at row `o`, column `k`: place 16·blk + 4·n + j inside the group holds nibble n of word 4·blk + j. -/
def weight (wp : (⟨3, ![12288, 128, 16]⟩ : Shape).Idx → BitVec 32) (sc bi : (⟨3, ![12288, 128, 1]⟩ : Shape).Idx → EReal)
    (o : Fin 12288) (k : Fin 8192) : EReal :=
  entry wp sc bi o (grp k) ⟨k.val / 4 % 4, by omega⟩ ⟨k.val % 64 / 16 * 4 + k.val % 4, by omega⟩

/-- Read through the exchange, place 16·n + 4·blk + j holds nibble n of word 4·blk + j: the other layout. -/
theorem weight_swap (wp : (⟨3, ![12288, 128, 16]⟩ : Shape).Idx → BitVec 32) (sc bi : (⟨3, ![12288, 128, 1]⟩ : Shape).Idx → EReal)
    (o : Fin 12288) (k : Fin 8192) :
    weight wp sc bi o (swap k) = entry wp sc bi o (grp k) ⟨k.val % 64 / 16, by omega⟩ ⟨k.val % 16, by omega⟩ := by
  unfold weight
  rw [grp_swap]
  congr 1
  · exact Fin.ext (swap_digit k)
  · exact Fin.ext (swap_word k)

/-- The layer on the flattened batch: rows m = 128·b + s. -/
def linear2 (x : (⟨3, ![4, 128, 8192]⟩ : Shape).Idx → EReal) (wp : (⟨3, ![12288, 128, 16]⟩ : Shape).Idx → BitVec 32)
    (sc bi : (⟨3, ![12288, 128, 1]⟩ : Shape).Idx → EReal) : (⟨2, ![512, 12288]⟩ : Shape).Idx → EReal :=
  fun i => ∑ k : Fin 8192, x (ix3 (⟨(i 0).val / 128, by have := idx2_lt0 i; omega⟩ : Fin 4) (⟨(i 0).val % 128, by omega⟩ : Fin 128) k)
    * weight wp sc bi ⟨(i 1).val, idx2_lt1 i⟩ k

/-- The layer: out (b, s, o) = Σ_k x (b, s, k) · weight (o, k). -/
def linear (x : (⟨3, ![4, 128, 8192]⟩ : Shape).Idx → EReal) (wp : (⟨3, ![12288, 128, 16]⟩ : Shape).Idx → BitVec 32)
    (sc bi : (⟨3, ![12288, 128, 1]⟩ : Shape).Idx → EReal) : (⟨3, ![4, 128, 12288]⟩ : Shape).Idx → EReal :=
  fun i => ∑ k : Fin 8192, x (ix3 (⟨(i 0).val, (i 0).isLt⟩ : Fin 4) (⟨(i 1).val, (i 1).isLt⟩ : Fin 128) k)
    * weight wp sc bi ⟨(i 2).val, (i 2).isLt⟩ k

end Cert.GroupQuant

end
-- ==== Proof.RefWeights.lean ====
/-
  The reference, read at an index: it is the layer of Dequant.lean.

  The reference reshapes a group's 16 words to (blk, j), takes the four nibble planes, stacks them on a new axis between blk
  and j, and flattens (blk, n, j) to the place 16·blk + 4·n + j: so place 16·blk + 4·n + j of group g of row o holds nibble n
  of word 4·blk + j. It turns the nibbles into numbers, multiplies by the group's scale, adds the group's bias, flattens the
  groups to 8192 columns and contracts with x over the columns.
-/
import proofs.«424929_j90933047591464_2_alg».proof.Proof.Gen.ReferenceIdeal.Run
import proofs.«424929_j90933047591464_2_alg».proof.Proof.Gen.ReferenceIdeal.Read
import proofs.«424929_j90933047591464_2_alg».proof.Proof.Dequant
import Idealize.ShloMosaic.Lib.Pipeline.Value
import Idealize.ShloMosaic.Lib.ValueIdx

noncomputable section

namespace Cert.ReferenceIdeal.Weights

open Cert.ReferenceIdeal Cert.ReferenceIdeal.Gen Cert.ReferenceIdeal.Read Idealize.ShloMosaic Idealize.ShloMosaic.ValueIdx Cert.GroupQuant

variable (x1 : S12288x128x16.Idx → BitVec 32)

/-! ## The nibble planes of the words reshaped to (blk, j) -/

/-- Word (blk, j) of the reshaped array is word 4·blk + j of the group. -/
theorem word_idx (o : Fin 12288) (g : Fin 128) (blk j : Fin 4) :
    idx_main_v0 (ix4 o g blk j) = ix3 o g (⟨4 * blk.val + j.val, by omega⟩ : Fin 16) := by
  funext a; apply Fin.ext
  have ho := o.isLt; have hg := g.isLt; have hb := blk.isLt; have hj := j.isLt
  match a with
  | ⟨0, _⟩ => show (((o.val * 128 + g.val) * 4 + blk.val) * 4 + j.val) / 2048 = o.val; omega
  | ⟨1, _⟩ => show (((o.val * 128 + g.val) * 4 + blk.val) * 4 + j.val) / 16 % 128 = g.val; omega
  | ⟨2, _⟩ => show (((o.val * 128 + g.val) * 4 + blk.val) * 4 + j.val) % 16 = 4 * blk.val + j.val; omega

theorem plane0 (i : S12288x128x4x4.Idx) : val_main_v4 (F := Ideal) x1 i = nibble 0 (x1 (idx_main_v0 i)) := by
  rw [val_main_v4_apply, val_main_v2_apply, val_main_v0_apply, val_main_v1_apply, val_main_c_apply, val_main_v3_apply, val_main_c_0_apply]
  rfl
theorem plane1 (i : S12288x128x4x4.Idx) : val_main_v8 (F := Ideal) x1 i = nibble 1 (x1 (idx_main_v0 i)) := by
  rw [val_main_v8_apply, val_main_v6_apply, val_main_v0_apply, val_main_v5_apply, val_main_c_1_apply, val_main_v7_apply, val_main_c_2_apply]
  rfl
theorem plane2 (i : S12288x128x4x4.Idx) : val_main_v12 (F := Ideal) x1 i = nibble 2 (x1 (idx_main_v0 i)) := by
  rw [val_main_v12_apply, val_main_v10_apply, val_main_v0_apply, val_main_v9_apply, val_main_c_3_apply, val_main_v11_apply, val_main_c_4_apply]
  rfl
theorem plane3 (i : S12288x128x4x4.Idx) : val_main_v16 (F := Ideal) x1 i = nibble 3 (x1 (idx_main_v0 i)) := by
  rw [val_main_v16_apply, val_main_v14_apply, val_main_v0_apply, val_main_v13_apply, val_main_c_5_apply, val_main_v15_apply, val_main_c_6_apply]
  rfl

/-! ## The planes stacked on a new axis -/

/-- The four planes, each with a unit axis in the fourth place. -/
def pieces : Fin 4 → S12288x128x4x1x4.Idx → BitVec 32 :=
  ![val_main_v17 (F := Ideal) x1, val_main_v18 (F := Ideal) x1, val_main_v19 (F := Ideal) x1, val_main_v20 (F := Ideal) x1]

/-- Piece `n` at (o, g, blk, 0, j) is nibble `n` of word 4·blk + j. -/
theorem pieces_apply (n : Fin 4) (o : Fin 12288) (g : Fin 128) (blk : Fin 4) (j : Fin 4) :
    pieces x1 n (ix5 o g blk (0 : Fin 1) j) = nibble n (x1 (ix3 o g (⟨4 * blk.val + j.val, by omega⟩ : Fin 16))) := by
  have e : ∀ i : S12288x128x4x1x4.Idx, idx_main_v17 i = ix4 (⟨(i 0).val, (i 0).isLt⟩ : Fin 12288) (⟨(i 1).val, (i 1).isLt⟩ : Fin 128) (⟨(i 2).val, (i 2).isLt⟩ : Fin 4) (⟨(i 4).val, (i 4).isLt⟩ : Fin 4) :=
    fun i => funext fun a => match a with | ⟨0, _⟩ => rfl | ⟨1, _⟩ => rfl | ⟨2, _⟩ => rfl | ⟨3, _⟩ => rfl
  rw [← word_idx]
  match n with
  | ⟨0, _⟩ => show val_main_v17 (F := Ideal) x1 _ = _; rw [val_main_v17_apply, plane0, e]; rfl
  | ⟨1, _⟩ => show val_main_v18 (F := Ideal) x1 _ = _; rw [val_main_v18_apply, plane1]; show nibble 1 (x1 (idx_main_v0 (idx_main_v17 _))) = _; rw [e]; rfl
  | ⟨2, _⟩ => show val_main_v19 (F := Ideal) x1 _ = _; rw [val_main_v19_apply, plane2]; show nibble 2 (x1 (idx_main_v0 (idx_main_v17 _))) = _; rw [e]; rfl
  | ⟨3, _⟩ => show val_main_v20 (F := Ideal) x1 _ = _; rw [val_main_v20_apply, plane3]; show nibble 3 (x1 (idx_main_v0 (idx_main_v17 _))) = _; rw [e]; rfl

/-- The stack at (o, g, blk, n, j) is nibble `n` of word 4·blk + j. -/
theorem stack_apply (o : Fin 12288) (g : Fin 128) (blk n j : Fin 4) :
    val_main_v21 (F := Ideal) x1 (ix5 o g blk n j) = nibble n (x1 (ix3 o g (⟨4 * blk.val + j.val, by omega⟩ : Fin 16))) := by
  rw [← pieces_apply]
  exact concatenate_ofFn_unit_apply (3 : Fin S12288x128x4x4x4.rank) (pieces x1)
    concatenates_S12288x128x4x1x4_S12288x128x4x1x4_S12288x128x4x1x4_S12288x128x4x1x4_S12288x128x4x4x4_d3 rfl rfl (ix5 o g blk n j) n rfl
    (ix5 o g blk (0 : Fin 1) j)
    (fun b => match b with
      | ⟨0, _⟩ => fun _ => rfl
      | ⟨1, _⟩ => fun _ => rfl
      | ⟨2, _⟩ => fun _ => rfl
      | ⟨3, _⟩ => fun h => absurd rfl h
      | ⟨4, _⟩ => fun _ => rfl)

/-! ## The dequantized weights and the contraction -/

/-- Place `c` of a group is (blk, n, j) = (c / 16, c / 4 % 4, c % 4). -/
theorem place_idx (o : Fin 12288) (g : Fin 128) (c : Fin 64) :
    idx_main_v22 (ix3 o g c) = ix5 o g (⟨c.val / 16, by omega⟩ : Fin 4) (⟨c.val / 4 % 4, by omega⟩ : Fin 4) (⟨c.val % 4, by omega⟩ : Fin 4) := by
  funext a; apply Fin.ext
  have ho := o.isLt; have hg := g.isLt; have hc := c.isLt
  match a with
  | ⟨0, _⟩ => show ((o.val * 128 + g.val) * 64 + c.val) / 8192 = o.val; omega
  | ⟨1, _⟩ => show ((o.val * 128 + g.val) * 64 + c.val) / 64 % 128 = g.val; omega
  | ⟨2, _⟩ => show ((o.val * 128 + g.val) * 64 + c.val) / 16 % 4 = c.val / 16; omega
  | ⟨3, _⟩ => show ((o.val * 128 + g.val) * 64 + c.val) / 4 % 4 = c.val / 4 % 4; omega
  | ⟨4, _⟩ => show ((o.val * 128 + g.val) * 64 + c.val) % 4 = c.val % 4; omega

/-- Column `k` of row `o` is place `k % 64` of group `k / 64`. -/
theorem col_idx (o : Fin 12288) (k : Fin 8192) :
    idx_main_v28 (ix2 o k) = ix3 o (grp k) (⟨k.val % 64, by omega⟩ : Fin 64) := by
  funext a; apply Fin.ext
  have ho := o.isLt; have hk := k.isLt
  match a with
  | ⟨0, _⟩ => show (o.val * 8192 + k.val) / 8192 = o.val; omega
  | ⟨1, _⟩ => show (o.val * 8192 + k.val) / 64 % 128 = k.val / 64; omega
  | ⟨2, _⟩ => show (o.val * 8192 + k.val) % 64 = k.val % 64; omega

/-- The group's scale or bias, spread over the 64 places. -/
theorem group_idx (o : Fin 12288) (g : Fin 128) (c : Fin 64) : idx_main_v24 (ix3 o g c) = ix3 o g (0 : Fin 1) :=
  funext fun a => match a with | ⟨0, _⟩ => rfl | ⟨1, _⟩ => rfl | ⟨2, _⟩ => rfl

/-- The reference's weight matrix is `weight`. -/
theorem weights_apply (x2 x3 : S12288x128x1.Idx → EReal) (o : Fin 12288) (k : Fin 8192) :
    val_main_v28 (F := Ideal) x1 x2 x3 (ix2 o k) = weight x1 x2 x3 o k := by
  have hk := k.isLt
  rw [val_main_v28_apply, col_idx, val_main_v27_apply, val_main_v25_apply, val_main_v23_apply, val_main_v22_apply, place_idx,
    stack_apply, val_main_v24_apply, val_main_v26_apply]
  show (((nibble _ (x1 _)).toInt : ℝ) : EReal) * x2 (idx_main_v24 (ix3 o (grp k) _)) + x3 (idx_main_v24 (ix3 o (grp k) _)) = _
  rw [group_idx]
  unfold weight entry
  have e1 : (⟨k.val % 64 / 4 % 4, by omega⟩ : Fin 4) = ⟨k.val / 4 % 4, by omega⟩ :=
    Fin.ext (by show k.val % 64 / 4 % 4 = k.val / 4 % 4; omega)
  have e2 : (⟨4 * (k.val % 64 / 16) + k.val % 64 % 4, by omega⟩ : Fin 16) = ⟨k.val % 64 / 16 * 4 + k.val % 4, by omega⟩ :=
    Fin.ext (by show 4 * (k.val % 64 / 16) + k.val % 64 % 4 = k.val % 64 / 16 * 4 + k.val % 4; omega)
  rw [e1, e2]

/-- The reference's result is the layer. -/
theorem result_eq (x0 : S4x128x8192.Idx → EReal) (x2 x3 : S12288x128x1.Idx → EReal) :
    val_main_v29 (F := Ideal) x0 x1 x2 x3 = linear x0 x1 x2 x3 := by
  funext i
  rw [val_main_v29_apply]
  unfold linear
  refine Finset.sum_congr rfl fun k _ => ?_
  have el : lidx_main_v29 i k = ix3 (⟨(i 0).val, (i 0).isLt⟩ : Fin 4) (⟨(i 1).val, (i 1).isLt⟩ : Fin 128) k :=
    funext fun a => match a with | ⟨0, _⟩ => rfl | ⟨1, _⟩ => rfl | ⟨2, _⟩ => rfl
  have er : ridx_main_v29 i k = ix2 (⟨(i 2).val, (i 2).isLt⟩ : Fin 12288) k :=
    funext fun a => match a with | ⟨0, _⟩ => rfl | ⟨1, _⟩ => rfl
  rw [el, er, weights_apply]

end Cert.ReferenceIdeal.Weights

end
-- ==== Proof.KernelBody.lean ====
/-
  What the kernel body computes, read at an index.

  The body loads a block of 128 weight rows — packed words v0 [128,128,16], group scales v1 and biases v4 [128,128] — and all
  of the permuted activations v31 [512,8192]. It unpacks the four nibble planes of the words, lays them side by side along the
  last axis (place 16·n + idx of a group holds nibble n of word idx), turns them into numbers, scales and shifts them by
  group, flattens the groups into 8192 columns, and multiplies: out (p, q) = Σ_k v31 (p, k) · w (q, k), the accumulator
  being zero. The narrowing to bf16 is the identity on exact values.
-/
import proofs.«424929_j90933047591464_2_alg».proof.Proof.Gen.KernelIdeal.Skeleton
import proofs.«424929_j90933047591464_2_alg».proof.Proof.Dequant
import Idealize.ShloMosaic.Lib.Pipeline.Value
import Idealize.ShloMosaic.Lib.ValueIdx
import Idealize.ShloMosaic.PureOps.Ideal.Laws
import Idealize.ShloMosaic.Lib.KernelVsHost

noncomputable section

namespace Cert.KernelIdeal.Body

open Cert.KernelIdeal Cert.KernelIdeal.Gen Idealize.ShloMosaic Idealize.ShloMosaic.ValueIdx Cert.GroupQuant

/-! ## The pieces of the dequantized block -/

/-- The four nibble planes of the loaded words. -/
def planes (v0 : IVec S128x128x16 32) : Fin 4 → IVec S128x128x16 32 :=
  fun n => andi (shrsi v0 (broadcast S128x128x16 (amt n))) (broadcast S128x128x16 15#32)

/-- Plane `n` at a word is that word's nibble `n`: the vector unit's shift and the host's agree. -/
theorem planes_apply (v0 : IVec S128x128x16 32) (n : Fin 4) (i : S128x128x16.Idx) : planes v0 n i = nibble n (v0 i) := by
  show IntOp.andi (IntOp.shrsi .vector (v0 i) (amt n)) 15#32 = IntOp.andi (IntOp.shrsi .host (v0 i) (amt n)) 15#32
  rw [shrsi_unit .vector .host]

/-- The planes side by side along the last axis: place `c` of a group holds nibble `c / 16` of word `c % 16`. -/
theorem nibs_apply (v0 : IVec S128x128x16 32)
    (hc : Shape.Concatenates ((List.ofFn fun n : Fin 4 => (⟨S128x128x16, planes v0 n⟩ : (s : Shape) × (s.Idx → BitVec 32))).map (·.1)) S128x128x64 2)
    (r g : Fin 128) (c : Fin 64) :
    concatenate S128x128x64 2 (List.ofFn fun n : Fin 4 => (⟨S128x128x16, planes v0 n⟩ : (s : Shape) × (s.Idx → BitVec 32))) hc (ix3 r g c)
      = nibble ⟨c.val / 16, by omega⟩ (v0 (ix3 r g (⟨c.val % 16, by omega⟩ : Fin 16))) := by
  rw [← planes_apply]
  exact concatenate_ofFn_apply (2 : Fin S128x128x64.rank) (planes v0) hc rfl 16 rfl (ix3 r g c) ⟨c.val / 16, by omega⟩ rfl
    (ix3 r g (⟨c.val % 16, by omega⟩ : Fin 16)) rfl
    (fun b => match b with
      | ⟨0, _⟩ => fun _ => rfl
      | ⟨1, _⟩ => fun _ => rfl
      | ⟨2, _⟩ => fun h => absurd rfl h)

/-- A per-group column [128,128] given a unit last axis and spread over the 64 places of each group. -/
theorem col_apply (v : FVec Ideal S128x128 .f32) (h1 : S128x128.ShapeCasts S128x128) (h2 : S128x128.ShapeCasts S128x128x1)
    (hb : S128x128x1.Broadcasts S128x128x64) (r g : Fin 128) (c : Fin 64) :
    broadcastTo S128x128x64 (shapeCast S128x128x1 (shapeCast S128x128 v h1) h2) hb (ix3 r g c) = v (ix2 r g) := by
  rw [broadcastTo_apply _ hb (ix3 r g c) (ix3 r g (0 : Fin 1)) (fun a => match a with
    | ⟨0, _⟩ => by show r.val = if (128 : Nat) = 1 then 0 else r.val; rw [if_neg (by decide)]
    | ⟨1, _⟩ => by show g.val = if (128 : Nat) = 1 then 0 else g.val; rw [if_neg (by decide)]
    | ⟨2, _⟩ => by show 0 = if (1 : Nat) = 1 then 0 else c.val; rw [if_pos rfl])]
  rw [shapeCast_apply _ h2 (ix3 r g (0 : Fin 1)) (ix2 r g) (by
    rewrite [Shape.rowMajor_val_two, Shape.rowMajor_val_three]
    show r.val * 128 + g.val = (r.val * 128 + g.val) * 1 + 0
    omega)]
  rw [shapeCast_self]

/-- Flattening [128,128,64] to [128,8192]: column `k` is place `k % 64` of group `k / 64`. -/
theorem flat_apply {α : Type} (w : S128x128x64.Idx → α) (hs : S128x128x64.ShapeCasts S128x8192) (q : Fin 128) (k : Fin 8192) :
    shapeCast S128x8192 w hs (ix2 q k) = w (ix3 q (grp k) (⟨k.val % 64, by omega⟩ : Fin 64)) :=
  shapeCast_apply w hs (ix2 q k) (ix3 q (grp k) (⟨k.val % 64, by omega⟩ : Fin 64)) (by
    rewrite [Shape.rowMajor_val_three, Shape.rowMajor_val_two]
    have := k.isLt
    show (q.val * 128 + k.val / 64) * 64 + k.val % 64 = q.val * 8192 + k.val
    omega)

/-! ## The dequantized block and the product -/

/-- The block's weight at row `q`, column `k`: place k % 64 = 16·n + idx of group k / 64 holds nibble n of word idx, as a number,
    times the group's scale plus the group's bias. -/
def blockWeight (v0 : IVec S128x128x16 32) (v1 v4 : FVec Ideal S128x128 .f32) (q : Fin 128) (k : Fin 8192) : EReal :=
  (((nibble ⟨k.val % 64 / 16, by omega⟩ (v0 (ix3 q (grp k) (⟨k.val % 16, by omega⟩ : Fin 16)))).toInt : ℝ) : EReal) * v1 (ix2 q (grp k))
    + v4 (ix2 q (grp k))

/-- The axes of the product's operands: out (p, q) reads the left operand at (p, k) and the right at (q, k). -/
theorem lhs_0 (i : S512x128.Idx) (c : dot_S512x8192_S128x8192_S512x128_1_1_0_0_n_n.contr.Idx) :
    (dot_S512x8192_S128x8192_S512x128_1_1_0_0_n_n.lhsIdx i c 0).val = (i 0).val := by
  unfold DotDims.lhsIdx
  rw [dif_neg (show ¬(0 : Fin S512x8192.rank) ∈ dot_S512x8192_S128x8192_S512x128_1_1_0_0_n_n.lhsBatch by decide), dif_pos (show (0 : Fin S512x8192.rank) ∈ dot_S512x8192_S128x8192_S512x128_1_1_0_0_n_n.lhsNonContracting by decide)]
  rfl
theorem lhs_1 (i : S512x128.Idx) (c : dot_S512x8192_S128x8192_S512x128_1_1_0_0_n_n.contr.Idx) :
    (dot_S512x8192_S128x8192_S512x128_1_1_0_0_n_n.lhsIdx i c 1).val = (c ⟨0, by decide⟩).val :=
  dot_S512x8192_S128x8192_S512x128_1_1_0_0_n_n.lhsIdx_val_of_single rfl i c
theorem rhs_0 (i : S512x128.Idx) (c : dot_S512x8192_S128x8192_S512x128_1_1_0_0_n_n.contr.Idx) :
    (dot_S512x8192_S128x8192_S512x128_1_1_0_0_n_n.rhsIdx i c 0).val = (i 1).val := by
  unfold DotDims.rhsIdx
  rw [dif_neg (show ¬(0 : Fin S128x8192.rank) ∈ dot_S512x8192_S128x8192_S512x128_1_1_0_0_n_n.rhsBatch by decide), dif_pos (show (0 : Fin S128x8192.rank) ∈ dot_S512x8192_S128x8192_S512x128_1_1_0_0_n_n.rhsNonContracting by decide)]
  rfl
theorem rhs_1 (i : S512x128.Idx) (c : dot_S512x8192_S128x8192_S512x128_1_1_0_0_n_n.contr.Idx) :
    (dot_S512x8192_S128x8192_S512x128_1_1_0_0_n_n.rhsIdx i c 1).val = (c ⟨0, by decide⟩).val :=
  dot_S512x8192_S128x8192_S512x128_1_1_0_0_n_n.rhsIdx_val_of_single rfl i c

/-- THE BODY'S RESULT at (p, q): the sum over the 8192 columns of the activation at (p, k) times the block's weight at (q, k). -/
theorem pay_apply (v0 : Vec Ideal S128x128x16 .i32) (v1 v4 : Vec Ideal S128x128 .f32) (v31 : Vec Ideal S512x8192 .bf16) (p : Fin 512) (q : Fin 128) :
    k0_pay1 (F := Ideal) v0 v1 v4 v31 (ix2 p q) = ∑ k : Fin 8192, v31 (ix2 p k) * blockWeight v0 v1 v4 q k := by
  unfold k0_pay1
  refine (Ideal.matmul_constant_zero_apply dot_S512x8192_S128x8192_S512x128_1_1_0_0_n_n none _ _ (ix2 p q)).trans ?_
  rw [← Equiv.sum_comp (contrEquiv1 dot_S512x8192_S128x8192_S512x128_1_1_0_0_n_n 8192 rfl rfl).symm]
  refine Finset.sum_congr rfl fun k _ => ?_
  have hk := contrEquiv1_symm_val dot_S512x8192_S128x8192_S512x128_1_1_0_0_n_n 8192 rfl rfl k
  have el : dot_S512x8192_S128x8192_S512x128_1_1_0_0_n_n.lhsIdx (ix2 p q) ((contrEquiv1 dot_S512x8192_S128x8192_S512x128_1_1_0_0_n_n 8192 rfl rfl).symm k) = ix2 p k := funext fun a => Fin.ext (by
    match a with
    | ⟨0, _⟩ => exact lhs_0 _ _
    | ⟨1, _⟩ => exact (lhs_1 _ _).trans hk)
  have er : dot_S512x8192_S128x8192_S512x128_1_1_0_0_n_n.rhsIdx (ix2 p q) ((contrEquiv1 dot_S512x8192_S128x8192_S512x128_1_1_0_0_n_n 8192 rfl rfl).symm k) = ix2 q k := funext fun a => Fin.ext (by
    match a with
    | ⟨0, _⟩ => exact rhs_0 _ _
    | ⟨1, _⟩ => exact (rhs_1 _ _).trans hk)
  rw [el, er, shapeCast_self]
  refine congrArg (v31 (ix2 p k) * ·) ?_
  rw [truncf_apply, flat_apply]
  simp only [addf_apply, mulf_apply, sitofp_apply]
  rw [col_apply, col_apply]
  have hn := nibs_apply v0 concatenates_S128x128x16_S128x128x16_S128x128x16_S128x128x16_S128x128x64_d2 q (grp k) (⟨k.val % 64, by omega⟩ : Fin 64)
  have e : (⟨k.val % 64 % 16, by omega⟩ : Fin 16) = ⟨k.val % 16, by omega⟩ := Fin.ext (by show k.val % 64 % 16 = k.val % 16; omega)
  unfold blockWeight
  rw [← e]
  exact congrArg (fun z : BitVec 32 => (((z.toInt : ℝ) : EReal)) * v1 (ix2 q (grp k)) + v4 (ix2 q (grp k))) hn

/-! ## One grid point's block of the layer -/

/-- At grid point `T` the body sees the permuted activations `X (p, k) = x (p / 128, p % 128, swap k)` and rows 128·T + r of the
    packed words, scales and biases. Its result at (p, q) is then the layer at row p, column 128·T + q: the body's sum runs over
    the columns in the other layout, which is the layer's own sum read through the exchange. -/
theorem block_eq (X : FVec Ideal S512x8192 .bf16) (WP : IVec S128x128x16 32) (SC BI : FVec Ideal S128x128 .f32)
    (x : (⟨3, ![4, 128, 8192]⟩ : Shape).Idx → EReal) (wp : (⟨3, ![12288, 128, 16]⟩ : Shape).Idx → BitVec 32)
    (sc bi : (⟨3, ![12288, 128, 1]⟩ : Shape).Idx → EReal) (T : Nat) (hT : T < 96)
    (hX : ∀ (p : Fin 512) (k : Fin 8192), X (ix2 p k) = x (ix3 (⟨p.val / 128, by omega⟩ : Fin 4) (⟨p.val % 128, by omega⟩ : Fin 128) (swap k)))
    (hWP : ∀ (r g : Fin 128) (j : Fin 16), WP (ix3 r g j) = wp (ix3 (⟨T * 128 + r.val, by omega⟩ : Fin 12288) g j))
    (hSC : ∀ r g : Fin 128, SC (ix2 r g) = sc (ix3 (⟨T * 128 + r.val, by omega⟩ : Fin 12288) g (0 : Fin 1)))
    (hBI : ∀ r g : Fin 128, BI (ix2 r g) = bi (ix3 (⟨T * 128 + r.val, by omega⟩ : Fin 12288) g (0 : Fin 1)))
    (y : S512x128.Idx) :
    k0_pay1 (F := Ideal) WP SC BI X y
      = linear2 x wp sc bi (ix2 (⟨(y 0).val, idx2_lt0 y⟩ : Fin 512) (⟨T * 128 + (y 1).val, by have := idx2_lt1 y; omega⟩ : Fin 12288)) := by
  obtain ⟨p, q, rfl⟩ : ∃ (p : Fin 512) (q : Fin 128), y = ix2 p q := ⟨y 0, y 1, eq_ix2 y⟩
  rw [pay_apply]
  refine Eq.trans ?_ (sum_swap (fun k => x (ix3 (⟨p.val / 128, by omega⟩ : Fin 4) (⟨p.val % 128, by omega⟩ : Fin 128) k)
    * weight wp sc bi (⟨T * 128 + q.val, by omega⟩ : Fin 12288) k))
  refine Finset.sum_congr rfl fun k _ => ?_
  show X (ix2 p k) * blockWeight WP SC BI q k
    = x (ix3 (⟨p.val / 128, by omega⟩ : Fin 4) (⟨p.val % 128, by omega⟩ : Fin 128) (swap k)) * weight wp sc bi (⟨T * 128 + q.val, by omega⟩ : Fin 12288) (swap k)
  rw [hX, weight_swap]
  unfold blockWeight entry
  rw [hWP, hSC, hBI]

end Cert.KernelIdeal.Body

end
-- ==== Proof.KernelEntry.lean ====
/-
  What the region finds in its operand arrays: the host lines before the call.

  The activations x [4,128,8192] are flattened to rows m = 128·b + s, each row's 8192 columns split as (group, a, b, c) with
  64·group + 16·a + 4·b + c, the two middle digits a and b transposed, and the columns flattened again: the permuted
  array at (p, k) is x at (p / 128, p % 128, swap k). (Its narrowing to bf16 is the identity on exact values.) The scales
  and biases [12288,128,1] lose their unit axis.
-/
import proofs.«424929_j90933047591464_2_alg».proof.Proof.Gen.KernelIdeal.Frame
import proofs.«424929_j90933047591464_2_alg».proof.Proof.Dequant
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo Cert.GroupQuant

/-! ## The layout operations at an index -/

/-- Flatten, split the columns into digits, transpose the middle digits, flatten, narrow: at (p, k) it is x at (p / 128, p % 128, swap k). -/
theorem permuted_apply (x : FVec Ideal S4x128x8192 .f32) (h1 : S4x128x8192.ShapeCasts S512x128x4x4x4)
    (h2 : S512x128x4x4x4.Transposes [0, 1, 3, 2, 4] S512x128x4x4x4) (h3 : S512x128x4x4x4.ShapeCasts S512x8192) (h4 : FTy.bits .bf16 < FTy.bits .f32)
    (p : Fin 512) (k : Fin 8192) :
    truncf .bf16 (shapeCast S512x8192 (transpose S512x128x4x4x4 [0, 1, 3, 2, 4] (shapeCast S512x128x4x4x4 x h1) h2) h3) h4 (ix2 p k)
      = x (ix3 (⟨p.val / 128, by omega⟩ : Fin 4) (⟨p.val % 128, by omega⟩ : Fin 128) (swap k)) := by
  have hp := p.isLt; have hk := k.isLt
  rw [truncf_apply]
  rw [shapeCast_apply _ h3 (ix2 p k)
    (ix5 p (grp k) (⟨k.val % 64 / 16, by omega⟩ : Fin 4) (⟨k.val % 64 / 4 % 4, by omega⟩ : Fin 4) (⟨k.val % 64 % 4, by omega⟩ : Fin 4)) (by
      rewrite [Shape.rowMajor_val_five, Shape.rowMajor_val_two]
      show (((p.val * 128 + k.val / 64) * 4 + k.val % 64 / 16) * 4 + k.val % 64 / 4 % 4) * 4 + k.val % 64 % 4 = p.val * 8192 + k.val
      omega)]
  rw [transpose_apply [0, 1, 3, 2, 4] (shapeCast S512x128x4x4x4 x h1) h2
    (ix5 p (grp k) (⟨k.val % 64 / 16, by omega⟩ : Fin 4) (⟨k.val % 64 / 4 % 4, by omega⟩ : Fin 4) (⟨k.val % 64 % 4, by omega⟩ : Fin 4))
    (ix5 p (grp k) (⟨k.val % 64 / 4 % 4, by omega⟩ : Fin 4) (⟨k.val % 64 / 16, by omega⟩ : Fin 4) (⟨k.val % 64 % 4, by omega⟩ : Fin 4))
    (fun b => match b with
      | ⟨0, _⟩ => rfl
      | ⟨1, _⟩ => rfl
      | ⟨2, _⟩ => rfl
      | ⟨3, _⟩ => rfl
      | ⟨4, _⟩ => rfl)]
  rw [shapeCast_apply _ h1 _ (ix3 (⟨p.val / 128, by omega⟩ : Fin 4) (⟨p.val % 128, by omega⟩ : Fin 128) (swap k)) (by
      rewrite [Shape.rowMajor_val_three, Shape.rowMajor_val_five]
      show (p.val / 128 * 128 + p.val % 128) * 8192 + (k.val / 64 * 64 + swapPlace (k.val % 64))
        = (((p.val * 128 + k.val / 64) * 4 + k.val % 64 / 4 % 4) * 4 + k.val % 64 / 16) * 4 + k.val % 64 % 4
      have h16 : k.val % 64 / 16 < 4 := by omega
      have e : k.val % 64 / 16 % 4 = k.val % 64 / 16 := Nat.mod_eq_of_lt h16
      simp only [swapPlace, e]
      omega)]

/-- Dropping the unit last axis of a [12288,128,1] array. -/
theorem squeezed_apply (v : FVec Ideal S12288x128x1 .f32) (h : S12288x128x1.ShapeCasts S12288x128) (o : Fin 12288) (g : Fin 128) :
    shapeCast S12288x128 v h (ix2 o g) = v (ix3 o g (0 : Fin 1)) :=
  shapeCast_apply v h (ix2 o g) (ix3 o g (0 : Fin 1)) (by
    rewrite [Shape.rowMajor_val_three, Shape.rowMajor_val_two]
    show (o.val * 128 + g.val) * 1 + 0 = o.val * 128 + g.val
    omega)

/-! ## The arrays at the region's entry -/

variable (m : (ℓ : Loc nD τ sig) → Buf (Elt Ideal) ℓ)

/-- The activations as the region finds them. -/
theorem x_entry (c : Dev nD) :
    (V m c main_v3 : S512x8192.Idx → EReal)
      = truncf (F := Ideal) .bf16 (shapeCast S512x8192 (transpose S512x128x4x4x4 [0, 1, 3, 2, 4]
          (shapeCast S512x128x4x4x4 (m ((c : Thread nD τ).loc main_arg0)) shapeCasts_S4x128x8192_S512x128x4x4x4)
          transposes_S512x128x4x4x4_S512x128x4x4x4_0_1_3_2_4) shapeCasts_S512x128x4x4x4_S512x8192) bitsLt_bf16_f32 := by
  show StableHlo.after hostOps0 (fun b => m (c, b)) (Proc.devRef .tc main_v3) = _
  after_results
  rfl

/-- The scales as the region finds them. -/
theorem scale_entry (c : Dev nD) :
    (V m c main_v4 : S12288x128.Idx → EReal) = shapeCast S12288x128 (m ((c : Thread nD τ).loc main_arg2)) shapeCasts_S12288x128x1_S12288x128 := by
  show StableHlo.after hostOps0 (fun b => m (c, b)) (Proc.devRef .tc main_v4) = _
  after_results
  rfl

/-- The biases as the region finds them. -/
theorem bias_entry (c : Dev nD) :
    (V m c main_v5 : S12288x128.Idx → EReal) = shapeCast S12288x128 (m ((c : Thread nD τ).loc main_arg3)) shapeCasts_S12288x128x1_S12288x128 := by
  show StableHlo.after hostOps0 (fun b => m (c, b)) (Proc.devRef .tc main_v5) = _
  after_results
  rfl

theorem x_entry_apply (c : Dev nD) (p : Fin 512) (k : Fin 8192) :
    (V m c main_v3 : S512x8192.Idx → EReal) (ix2 p k)
      = (m ((c : Thread nD τ).loc main_arg0) : S4x128x8192.Idx → EReal) (ix3 (⟨p.val / 128, by omega⟩ : Fin 4) (⟨p.val % 128, by omega⟩ : Fin 128) (swap k)) := by
  rw [x_entry]
  exact permuted_apply _ _ _ _ _ p k

theorem scale_entry_apply (c : Dev nD) (o : Fin 12288) (g : Fin 128) :
    (V m c main_v4 : S12288x128.Idx → EReal) (ix2 o g) = (m ((c : Thread nD τ).loc main_arg2) : S12288x128x1.Idx → EReal) (ix3 o g (0 : Fin 1)) := by
  rw [scale_entry]
  exact squeezed_apply _ _ o g

theorem bias_entry_apply (c : Dev nD) (o : Fin 12288) (g : Fin 128) :
    (V m c main_v5 : S12288x128.Idx → EReal) (ix2 o g) = (m ((c : Thread nD τ).loc main_arg3) : S12288x128x1.Idx → EReal) (ix3 o g (0 : Fin 1)) := by
  rw [bias_entry]
  exact squeezed_apply _ _ o g

end Cert.KernelIdeal.Entry

end
-- ==== Proof.KernelArray.lean ====
/-
  From the grid points' blocks to the kernel's result.

  Grid point t stages rows 128·t … 128·t + 127 of the packed words, scales and biases, all of the permuted activations, and
  writes columns 128·t … 128·t + 127 of the [512,12288] output. So what point t writes back is block t of the layer on the
  flattened batch (`linear2`), the 96 blocks tile the output, and the array after the region is that layer. The host line
  after the region folds the 512 rows back to (4,128): the result is `linear`.
-/
import proofs.«424929_j90933047591464_2_alg».proof.Proof.Gen.KernelIdeal.Frame
import proofs.«424929_j90933047591464_2_alg».proof.Proof.KernelBody
import proofs.«424929_j90933047591464_2_alg».proof.Proof.KernelEntry
import Idealize.ShloMosaic.Lib.Pipeline.Value
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo Cert.GroupQuant Cert.KernelIdeal.Body Cert.KernelIdeal.Entry

variable (m : (ℓ : Loc nD τ sig) → Buf (Elt Ideal) ℓ) (ρ : Dev nD → PrngReg)

/-- The layer on the flattened batch, of the arguments as launched. -/
abbrev flatResult (c : Dev nD) : S512x12288.Idx → EReal :=
  linear2 (m ((c : Thread nD τ).loc main_arg0)) (m ((c : Thread nD τ).loc main_arg1)) (m ((c : Thread nD τ).loc main_arg2)) (m ((c : Thread nD τ).loc main_arg3))

/-! ## The index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 96 points: the activations' block is always the whole array; the words',
    scales' and biases' block is row block t; the output's is column block t. -/
theorem idx_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

theorem t_lt (t : Fin cfg0.N) : t.val < 96 := t.isLt

/-! ## The input blocks at a point -/

theorem xblk_apply (c : Dev nD) (t : Fin cfg0.N) (p : Fin 512) (k : Fin 8192) :
    (iblk m c 0 t : S512x8192.Idx → EReal) (ix2 p k)
      = (m ((c : Thread nD τ).loc main_arg0) : S4x128x8192.Idx → EReal) (ix3 (⟨p.val / 128, by omega⟩ : Fin 4) (⟨p.val % 128, by omega⟩ : Fin 128) (swap k)) := by
  obtain ⟨e0, e1, -⟩ := idx_facts t
  refine Eq.trans ?_ (x_entry_apply m c p k)
  show V m c main_v3 (((cfg0.win 0).blk t).view.emb (ix2 p k)) = V m c main_v3 (ix2 p k)
  have h : ((cfg0.win 0).blk t).view.emb (ix2 p k) = ix2 p k := by
    funext a; apply Fin.ext
    match a with
    | ⟨0, _⟩ => show win0_0.index t (0 : Fin 2) * 512 + 1 * p.val = p.val; omega
    | ⟨1, _⟩ => show win0_0.index t (1 : Fin 2) * 8192 + 1 * k.val = k.val; omega
  rw [h]

theorem wblk_apply (c : Dev nD) (t : Fin cfg0.N) (r g : Fin 128) (j : Fin 16) :
    (iblk m c 1 t : S128x128x16.Idx → BitVec 32) (ix3 r g j)
      = (m ((c : Thread nD τ).loc main_arg1) : S12288x128x16.Idx → BitVec 32) (ix3 (⟨t.val * 128 + r.val, by have := t_lt t; omega⟩ : Fin 12288) g j) := by
  obtain ⟨-, -, e0, e1, e2, -⟩ := idx_facts t
  rw [← V_main_arg1 m c]
  show V m c main_arg1 (((cfg0.win 1).blk t).view.emb (ix3 r g j)) = V m c main_arg1 (ix3 (⟨t.val * 128 + r.val, by have := t_lt t; omega⟩ : Fin 12288) g j)
  have h : ((cfg0.win 1).blk t).view.emb (ix3 r g j) = ix3 (⟨t.val * 128 + r.val, by have := t_lt t; omega⟩ : Fin 12288) g j := by
    funext a; apply Fin.ext
    match a with
    | ⟨0, _⟩ => show win0_1.index t (0 : Fin 3) * 128 + 1 * r.val = t.val * 128 + r.val; omega
    | ⟨1, _⟩ => show win0_1.index t (1 : Fin 3) * 128 + 1 * g.val = g.val; omega
    | ⟨2, _⟩ => show win0_1.index t (2 : Fin 3) * 16 + 1 * j.val = j.val; omega
  rw [h]

theorem sblk_apply (c : Dev nD) (t : Fin cfg0.N) (r g : Fin 128) :
    (iblk m c 2 t : S128x128.Idx → EReal) (ix2 r g)
      = (m ((c : Thread nD τ).loc main_arg2) : S12288x128x1.Idx → EReal) (ix3 (⟨t.val * 128 + r.val, by have := t_lt t; omega⟩ : Fin 12288) g (0 : Fin 1)) := by
  obtain ⟨-, -, -, -, -, e0, e1, -⟩ := idx_facts t
  refine Eq.trans ?_ (scale_entry_apply m c (⟨t.val * 128 + r.val, by have := t_lt t; omega⟩ : Fin 12288) g)
  show V m c main_v4 (((cfg0.win 2).blk t).view.emb (ix2 r g)) = V m c main_v4 (ix2 (⟨t.val * 128 + r.val, by have := t_lt t; omega⟩ : Fin 12288) g)
  have h : ((cfg0.win 2).blk t).view.emb (ix2 r g) = ix2 (⟨t.val * 128 + r.val, by have := t_lt t; omega⟩ : Fin 12288) g := by
    funext a; apply Fin.ext
    match a with
    | ⟨0, _⟩ => show win0_2.index t (0 : Fin 2) * 128 + 1 * r.val = t.val * 128 + r.val; omega
    | ⟨1, _⟩ => show win0_2.index t (1 : Fin 2) * 128 + 1 * g.val = g.val; omega
  rw [h]

theorem bblk_apply (c : Dev nD) (t : Fin cfg0.N) (r g : Fin 128) :
    (iblk m c 3 t : S128x128.Idx → EReal) (ix2 r g)
      = (m ((c : Thread nD τ).loc main_arg3) : S12288x128x1.Idx → EReal) (ix3 (⟨t.val * 128 + r.val, by have := t_lt t; omega⟩ : Fin 12288) g (0 : Fin 1)) := by
  obtain ⟨-, -, -, -, -, -, -, e0, e1, -⟩ := idx_facts t
  refine Eq.trans ?_ (bias_entry_apply m c (⟨t.val * 128 + r.val, by have := t_lt t; omega⟩ : Fin 12288) g)
  show V m c main_v5 (((cfg0.win 3).blk t).view.emb (ix2 r g)) = V m c main_v5 (ix2 (⟨t.val * 128 + r.val, by have := t_lt t; omega⟩ : Fin 12288) g)
  have h : ((cfg0.win 3).blk t).view.emb (ix2 r g) = ix2 (⟨t.val * 128 + r.val, by have := t_lt t; omega⟩ : Fin 12288) g := by
    funext a; apply Fin.ext
    match a with
    | ⟨0, _⟩ => show win0_3.index t (0 : Fin 2) * 128 + 1 * r.val = t.val * 128 + r.val; omega
    | ⟨1, _⟩ => show win0_3.index t (1 : Fin 2) * 128 + 1 * g.val = g.val; omega
  rw [h]

/-! ## What a point writes back, the cover, the array after the region -/

/-- WHAT POINT `t` WRITES BACK is block `t` of the layer on the flattened batch. -/
theorem flushed_eq (c : Dev nD) (t : Fin cfg0.N) :
    (dats m 0 c).flushed 4 t = ((cfg0.win 4).blk t).view.read (Elt Ideal) (flatResult m c) := by
  show (cfg0.win 4).cut (grid0.coords t) ((dats m 0 c).after 4 t) = _
  rw [after0_4]
  unfold out0_4
  rw [View.canon_unit_zero hz2]
  simp only [View.ld_unit_zero (S := S512x8192) hz2, View.ld_unit_zero (S := S128x128x16) hz3, View.ld_unit_zero (S := S128x128) hz2]
  obtain ⟨-, -, -, -, -, -, -, -, -, e0, e1⟩ := idx_facts t
  funext y
  refine (block_eq (iblk m c 0 t) (iblk m c 1 t) (iblk m c 2 t) (iblk m c 3 t)
    (m ((c : Thread nD τ).loc main_arg0)) (m ((c : Thread nD τ).loc main_arg1)) (m ((c : Thread nD τ).loc main_arg2)) (m ((c : Thread nD τ).loc main_arg3))
    t.val (t_lt t) (xblk_apply m c t) (wblk_apply m c t) (sblk_apply m c t) (bblk_apply m c t) y).trans ?_
  show flatResult m c _ = flatResult m c (((cfg0.win 4).blk t).view.emb y)
  refine congrArg (flatResult m c) (funext fun a => Fin.ext ?_)
  match a with
  | ⟨0, _⟩ => show (y 0).val = win0_4.index t (0 : Fin 2) * 512 + 1 * (y 0).val; omega
  | ⟨1, _⟩ => show t.val * 128 + (y 1).val = win0_4.index t (1 : Fin 2) * 128 + 1 * (y 1).val; omega

/-- An index of the output is in point `t`'s block iff each coordinate is in the block's range on its axis. -/
theorem mem_blk (t : Fin cfg0.N) (i : S512x12288.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v6).slice (win0_4.rect t)).set ↔ _
  rw [View.set_slice_whole, Rect.mem_set_unit]
  exact Iff.rfl

/-- The 96 column blocks tile the output: column o lies in block o / 128. -/
theorem cover (i : S512x12288.Idx) : ∃ t : Fin cfg0.N, (cfg0.win 4).flush t = true ∧ i ∈ ((cfg0.win 4).blk t).view.set := by
  have h0 : (i 0).val < 512 := idx2_lt0 i
  have h1 : (i 1).val < 12288 := idx2_lt1 i
  have hN : cfg0.N = 96 := N_0
  let t : Fin cfg0.N := ⟨(i 1).val / 128, by rw [hN]; omega⟩
  obtain ⟨-, -, -, -, -, -, -, -, -, e0, e1⟩ := idx_facts t
  have e1' : win0_4.index t (1 : Fin 2) = (i 1).val / 128 := e1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 128 ≤ (i 1).val ∧ (i 1).val < win0_4.index t (1 : Fin 2) * 128 + 128; omega

/-- THE OUTPUT ARRAY after the region is the layer on the flattened batch. -/
theorem final (c : Dev nD) : (dats m 0 c).arrAt 4 cfg0.N = flatResult m c :=
  (dats m 0 c).arrAt_eq_of_cover 4 (flatResult m c) (fun t _ => flushed_eq m c t) cover

/-! ## The host line after the region, and the run -/

/-- Folding the 512 rows back to (4,128): the layer. -/
theorem folded_eq (x : (⟨3, ![4, 128, 8192]⟩ : Shape).Idx → EReal) (wp : (⟨3, ![12288, 128, 16]⟩ : Shape).Idx → BitVec 32)
    (sc bi : (⟨3, ![12288, 128, 1]⟩ : Shape).Idx → EReal) (h : S512x12288.ShapeCasts S4x128x12288) :
    shapeCast S4x128x12288 (linear2 x wp sc bi) h = linear x wp sc bi := by
  funext i
  have h0 : (i 0).val < 4 := (i 0).isLt
  have h1 : (i 1).val < 128 := (i 1).isLt
  have h2 : (i 2).val < 12288 := (i 2).isLt
  rw [shapeCast_apply _ h i (ix2 (⟨(i 0).val * 128 + (i 1).val, by omega⟩ : Fin 512) (⟨(i 2).val, h2⟩ : Fin 12288)) (by
    rewrite [Shape.rowMajor_val_two, Shape.rowMajor_val_three]
    show ((i 0).val * 128 + (i 1).val) * 12288 + (i 2).val = ((i 0).val * 128 + (i 1).val) * 12288 + (i 2).val
    rfl)]
  unfold linear2 linear
  have ea : (⟨((i 0).val * 128 + (i 1).val) / 128, by omega⟩ : Fin 4) = ⟨(i 0).val, h0⟩ := Fin.ext (by show ((i 0).val * 128 + (i 1).val) / 128 = (i 0).val; omega)
  have eb : (⟨((i 0).val * 128 + (i 1).val) % 128, by omega⟩ : Fin 128) = ⟨(i 1).val, h1⟩ := Fin.ext (by show ((i 0).val * 128 + (i 1).val) % 128 = (i 1).val; omega)
  show (∑ k : Fin 8192, x (ix3 (⟨((i 0).val * 128 + (i 1).val) / 128, by omega⟩ : Fin 4) (⟨((i 0).val * 128 + (i 1).val) % 128, by omega⟩ : Fin 128) k) * weight wp sc bi ⟨(i 2).val, h2⟩ k) = _
  rw [ea, eb]

/-- The program's result: the tail reshapes the region's output array. -/
theorem tail_eq (c : Dev nD) :
    Pipeline.afterTail₀ cfgs (dats m) 0 (V0 m) [hostOps1] c main_v7
      = linear (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.devRef .tc main_v6) = flatResult m c from
    (Pipeline.withArrays_arr spec0 launch0.win.arr_inj c _ _ 4).trans (final m c)]
  exact folded_eq _ _ _ _ _

/-- THE KERNEL PROGRAM'S RUN at the exact values: it ends with the result at the layer of the launch arguments, which end unchanged. -/
theorem run : θ_run defs (onTc (τ := τ) (main (F := Ideal))) ⟨m, fun _ => 0, ρ⟩ (fun r => ∀ c : Dev nD,
      r.2.mem ((c.tc : Thread nD τ).loc main_v7)
        = linear (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v7 (Pipeline.mem_restRefs_of main_v7 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Result

end
-- ==== Proof.lean ====
/-
  A group-quantized linear layer: out (b, s, o) = Σ_k x (b, s, k) · w (o, k) over 8192 columns, the weight w (o, k) being a
  4-bit value unpacked from a 32-bit word, times its group's scale, plus its group's bias (Proof/Dequant.lean).

  The reference unpacks a group's 64 values in the order 16·blk + 4·n + j (nibble n of word 4·blk + j), dequantizes and
  contracts with x (Proof/RefWeights.lean). The kernel unpacks them in the order 16·n + 4·blk + j, and its host code permutes
  x's columns inside each group the same way; it computes the output 128 columns at a time, one grid point per block of
  weight rows, with a matrix product into a zero accumulator (Proof/KernelBody.lean, KernelEntry.lean, KernelArray.lean).
  The two orders differ by exchanging the two middle base-4 digits of a column's place in its group, an involution of the
  columns: the kernel's sum is the reference's sum taken through it, term by term the same products. Only the
  commutativity of a finite sum is used, so the inputs' finiteness is not needed, and the narrowings to bf16 are the identity
  on exact values.

  The three programs' runs and unchanged arguments are the generated frames and the generated reference run; no operation was
  rewritten between the kernel and its exact reading, so that claim is empty.
-/
import proofs.«424929_j90933047591464_2_alg».proof.Defs
import proofs.«424929_j90933047591464_2_alg».proof.Proof.Gen.Kernel
import proofs.«424929_j90933047591464_2_alg».proof.Proof.Gen.Kernel.Skeleton
import proofs.«424929_j90933047591464_2_alg».proof.Proof.Gen.Kernel.Launch
import proofs.«424929_j90933047591464_2_alg».proof.Proof.Gen.Kernel.Points
import proofs.«424929_j90933047591464_2_alg».proof.Proof.Gen.Kernel.Frame
import proofs.«424929_j90933047591464_2_alg».proof.Proof.Gen.KernelIdeal
import proofs.«424929_j90933047591464_2_alg».proof.Proof.Gen.KernelIdeal.Skeleton
import proofs.«424929_j90933047591464_2_alg».proof.Proof.Gen.KernelIdeal.Launch
import proofs.«424929_j90933047591464_2_alg».proof.Proof.Gen.KernelIdeal.Points
import proofs.«424929_j90933047591464_2_alg».proof.Proof.Gen.KernelIdeal.Frame
import proofs.«424929_j90933047591464_2_alg».proof.Proof.Gen.ReferenceIdeal
import proofs.«424929_j90933047591464_2_alg».proof.Proof.Gen.ReferenceIdeal.Run
import proofs.«424929_j90933047591464_2_alg».proof.Proof.Gen.ReferenceIdeal.Read
import proofs.«424929_j90933047591464_2_alg».proof.Proof.Gen.Pre_finite_inputs
import proofs.«424929_j90933047591464_2_alg».proof.Proof.RefWeights
import proofs.«424929_j90933047591464_2_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer of their (agreeing) arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v29_eq _ _ _ _).trans (Cert.ReferenceIdeal.Weights.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
